-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048 : Shape := ⟨2, ![8, 2048]⟩
abbrev S768x50257 : Shape := ⟨2, ![768, 50257]⟩
abbrev S2048x768 : Shape := ⟨2, ![2048, 768]⟩
abbrev S_ : Shape := ⟨0, ![]⟩

class Facts : Prop where
  bcast_S_S768x50257 : S_.BroadcastsInDim S768x50257 (![] : Fin 0 → Fin S768x50257.rank)
  reducesTo_S768x50257_S_d0_1 : S768x50257.ReducesTo [0, 1] S_
  h_S_ : 0 < S_.numel
  bcast_S_S2048x768 : S_.BroadcastsInDim S2048x768 (![] : Fin 0 → Fin S2048x768.rank)
  reducesTo_S2048x768_S_d0_1 : S2048x768.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S8x2048 32) (main_arg1 : FVec F S768x50257 .f32) (main_arg2 : FVec F S2048x768 .f32) : IVec S_ 1 :=
  let main_v0 : FVec F S768x50257 .f32 := Host.absf main_arg1
  let main_cst : FVec F S_ .f32 := constant S_ .f32 0x7F800000#32
  let main_v1 : FVec F S768x50257 .f32 := broadcastInDim S768x50257 ![] bcast_S_S768x50257 main_cst
  let main_v2 : IVec S768x50257 1 := cmpf .olt main_v0 main_v1
  let main_c : IVec S_ 1 := constantI S_ 1 1#1
  let main_v3 : IVec S_ 1 := (fun x v => Host.reduce IntOp.andi x v reducesTo_S768x50257_S_d0_1 h_S_) main_v2 main_c
  let main_v4 : FVec F S2048x768 .f32 := Host.absf main_arg2
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_c_2 : IVec S_ 32 := constantI S_ 32 0#32
  let main_v9 : IVec S8x2048 32 := broadcastInDim S8x2048 ![] bcast_S_S8x2048 main_c_2
  let main_v10 : IVec S8x2048 1 := cmpi .sge main_arg0 main_v9
  let main_c_3 : IVec S_ 1 := constantI S_ 1 1#1
  let main_v11 : IVec S_ 1 := (fun x v => Host.reduce IntOp.andi x v reducesTo_S8x2048_S_d0_1 h_S_) main_v10 main_c_3
  let main_v12 : IVec S_ 1 := andi main_v8 main_v11
  let main_c_4 : IVec S_ 32 := constantI S_ 32 50257#32
  let main_v13 : IVec S8x2048 32 := broadcastInDim S8x2048 ![] bcast_S_S8x2048 main_c_4
  let main_v14 : IVec S8x2048 1 := cmpi .slt main_arg0 main_v13
  let main_c_5 : IVec S_ 1 := constantI S_ 1 1#1
  let main_v15 : IVec S_ 1 := (fun x v => Host.reduce IntOp.andi x v reducesTo_S8x2048_S_d0_1 h_S_) main_v14 main_c_5
  fn_part1 (F := F) main_v12 main_v15
-- ==== Kernel.lean ====
abbrev S8x2048 : Shape := ⟨2, ![8, 2048]⟩
abbrev S768x50257 : Shape := ⟨2, ![768, 50257]⟩
abbrev S2048x768 : Shape := ⟨2, ![2048, 768]⟩
abbrev S50257x768 : Shape := ⟨2, ![50257, 768]⟩
abbrev S50257x1x768 : Shape := ⟨3, ![50257, 1, 768]⟩
abbrev S2048x1x768 : Shape := ⟨3, ![2048, 1, 768]⟩
abbrev S16384 : Shape := ⟨1, ![16384]⟩
abbrev S16384x1x768 : Shape := ⟨3, ![16384, 1, 768]⟩
abbrev S1x1x768 : Shape := ⟨3, ![1, 1, 768]⟩
abbrev S1 : Shape := ⟨1, ![1]⟩
abbrev S8x2048x768 : Shape := ⟨3, ![8, 2048, 768]⟩

abbrev nBuf : Space → Nat
  | .hbm => 8
  | .vmem => 6
  | .smem => 1
  | _ => 0

abbrev bufTy : (tb : Table) → Fin (tcTables nBuf tb) → BufTy
  | .hbm, ⟨0, _⟩ => ⟨S8x2048, .i32⟩
  | .hbm, ⟨1, _⟩ => ⟨S768x50257, .f32⟩
  | .hbm, ⟨2, _⟩ => ⟨S2048x768, .f32⟩
  | .hbm, ⟨3, _⟩ => ⟨S50257x768, .f32⟩
  | .hbm, ⟨4, _⟩ => ⟨S50257x1x768, .f32⟩
  | .hbm, ⟨5, _⟩ => ⟨S2048x1x768, .f32⟩
  | .hbm, ⟨6, _⟩ => ⟨S16384x1x768, .f32⟩
  | .hbm, ⟨7, _⟩ => ⟨S8x2048x768, .f32⟩
  | .local _ .vmem, ⟨0, _⟩ => ⟨S1x1x768, .f32⟩
  | .local _ .vmem, ⟨1, _⟩ => ⟨S1x1x768, .f32⟩
  | .local _ .vmem, ⟨2, _⟩ => ⟨S1x1x768, .f32⟩
  | .local _ .vmem, ⟨3, _⟩ => ⟨S1x1x768, .f32⟩
  | .local _ .vmem, ⟨4, _⟩ => ⟨S1x1x768, .f32⟩
  | .local _ .vmem, ⟨5, _⟩ => ⟨S1x1x768, .f32⟩
  | .local _ .smem, ⟨0, _⟩ => ⟨S16384, .i32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v4 : Ref sig .tc := ⟨.hbm, 6, rfl⟩
abbrev main_v5 : Ref sig .tc := ⟨.hbm, 7, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16384], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c2048_i32 : BitVec 32 := 2048#32
  let c0_i32 : BitVec 32 := 0#32
  let v0 : BitVec 1 := Scalar.cmpi .eq c2048_i32 c0_i32
  let c1_i32 : BitVec 32 := 1#32
  let v1 : BitVec 32 := Scalar.select v0 c1_i32 c2048_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S768x50257_S50257x768_1_0 : S768x50257.Transposes [1, 0] S50257x768
  shapeCasts_S50257x768_S50257x1x768 : S50257x768.ShapeCasts S50257x1x768
  shapeCasts_S2048x768_S2048x1x768 : S2048x768.ShapeCasts S2048x1x768
  shapeCasts_S8x2048_S16384 : S8x2048.ShapeCasts S16384
  numel1_S1 : S1.numel = 1
  inb_S1x1x768_S1x1x768_0_0_0 : ∀ a, (![0, 0, 0] : Fin 3 → Nat) a + S1x1x768.size a ≤ S1x1x768.size a
  h_S1x1x768 : 0 < S1x1x768.numel
  shapeCasts_S1x1x768_S1x1x768 : S1x1x768.ShapeCasts S1x1x768
  shapeCasts_S16384x1x768_S8x2048x768 : S16384x1x768.ShapeCasts S8x2048x768
  hrank0 : 0 < grid0.rank
  k0_off1_inb : ∀ i : grid0.Coords, ∀ a, (k0_off1 i) a + S1.size a ≤ S16384.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x768.size a ≤ S2048x1x768.size a
  hwx0_1 : ∀ i : grid0.Coords, EltTy.bits .f32 = 32 ∨ (Rect.block (s := S2048x1x768) S1x1x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x768.size a ≤ S16384x1x768.size a
  hwx0_2 : ∀ i : grid0.Coords, EltTy.bits .f32 = 32 ∨ (Rect.block (s := S16384x1x768) S1x1x768.size (cc0_transform_2 i) (hinb0_2 i)).WholeWords (EltTy.packing .f32)

variable [Facts₀]

abbrev spec0_0 : Pipeline.WinSpec sig grid0.rank :=
  Pipeline.WinSpec.ofSpec (Memref.whole main_v1) S1x1x768.size reads0_0 false false 2 stage0_0 sem0_0 nbuf0_0 hstage0_0

abbrev spec0_1 : Pipeline.WinSpec sig grid0.rank :=
  Pipeline.WinSpec.ofSpec (Memref.whole main_v2) S1x1x768.size reads0_1 false false 2 stage0_1 sem0_1 nbuf0_1 hstage0_1

abbrev spec0_2 : Pipeline.WinSpec sig grid0.rank :=
  Pipeline.WinSpec.ofSpec (Memref.whole main_v4) S1x1x768.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x768.size a ≤ S50257x1x768.size a), EltTy.bits .f32 = 32 ∨ (Rect.block (s := S50257x1x768) S1x1x768.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S8x2048 : Shape := ⟨2, ![8, 2048]⟩
abbrev S768x50257 : Shape := ⟨2, ![768, 50257]⟩
abbrev S2048x768 : Shape := ⟨2, ![2048, 768]⟩
abbrev S50257x768 : Shape := ⟨2, ![50257, 768]⟩
abbrev S_ : Shape := ⟨0, ![]⟩
abbrev S8x2048x1 : Shape := ⟨3, ![8, 2048, 1]⟩
abbrev S1 : Shape := ⟨1, ![1]⟩
abbrev S1x1x1 : Shape := ⟨3, ![1, 1, 1]⟩
abbrev S8x2048x768 : Shape := ⟨3, ![8, 2048, 768]⟩
abbrev S1x2048x768 : Shape := ⟨3, ![1, 2048, 768]⟩

abbrev nBuf : Space → Nat
  | .hbm => 30
  | .vmem => 0
  | .smem => 0
  | _ => 0

abbrev bufTy : (tb : Table) → Fin (tcTables nBuf tb) → BufTy
  | .hbm, ⟨0, _⟩ => ⟨S8x2048, .i32⟩
  | .hbm, ⟨1, _⟩ => ⟨S768x50257, .f32⟩
  | .hbm, ⟨2, _⟩ => ⟨S2048x768, .f32⟩
  | .hbm, ⟨3, _⟩ => ⟨S50257x768, .f32⟩
  | .hbm, ⟨4, _⟩ => ⟨S_, .i32⟩
  | .hbm, ⟨5, _⟩ => ⟨S8x2048, .i32⟩
  | .hbm, ⟨6, _⟩ => ⟨S8x2048, .i1⟩
  | .hbm, ⟨7, _⟩ => ⟨S_, .i32⟩
  | .hbm, ⟨8, _⟩ => ⟨S8x2048, .i32⟩
  | .hbm, ⟨9, _⟩ => ⟨S8x2048, .i32⟩
  | .hbm, ⟨10, _⟩ => ⟨S8x2048, .i32⟩
  | .hbm, ⟨11, _⟩ => ⟨S8x2048x1, .i32⟩
  | .hbm, ⟨12, _⟩ => ⟨S1, .i32⟩
  | .hbm, ⟨13, _⟩ => ⟨S_, .i32⟩
  | .hbm, ⟨14, _⟩ => ⟨S8x2048x1, .i32⟩
  | .hbm, ⟨15, _⟩ => ⟨S8x2048x1, .i1⟩
  | .hbm, ⟨16, _⟩ => ⟨S1x1x1, .i32⟩
  | .hbm, ⟨17, _⟩ => ⟨S8x2048x1, .i32⟩
  | .hbm, ⟨18, _⟩ => ⟨S8x2048x1, .i1⟩
  | .hbm, ⟨19, _⟩ => ⟨S8x2048x1, .i1⟩
  | .hbm, ⟨20, _⟩ => ⟨S_, .i1⟩
  | .hbm, ⟨21, _⟩ => ⟨S8x2048, .i1⟩
  | .hbm, ⟨22, _⟩ => ⟨S8x2048x768, .f32⟩
  | .hbm, ⟨23, _⟩ => ⟨S8x2048x768, .i1⟩
  | .hbm, ⟨24, _⟩ => ⟨S_, .f32⟩
  | .hbm, ⟨25, _⟩ => ⟨S8x2048x768, .f32⟩
  | .hbm, ⟨26, _⟩ => ⟨S8x2048x768, .f32⟩
  | .hbm, ⟨27, _⟩ => ⟨S1x2048x768, .f32⟩
  | .hbm, ⟨28, _⟩ => ⟨S8x2048x768, .f32⟩
  | .hbm, ⟨29, _⟩ => ⟨S8x2048x768, .f32⟩
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩

abbrev nD : Nat := 1
abbrev τ : Topo := Topo.v7x

variable {F : FTy → Type} [FloatOps F]

class Facts₀ : Prop where
  transposes_S768x50257_S50257x768_1_0 : S768x50257.Transposes [1, 0] S50257x768
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S1_S1x1x1_2 : S1.BroadcastsInDim S1x1x1 (![2] : Fin 1 → Fin S1x1x1.rank)
  bcast_S1x1x1_S8x2048x1_0_1_2 : S1x1x1.BroadcastsInDim S8x2048x1 (![0, 1, 2] : Fin 3 → Fin S8x2048x1.rank)
  reducesTo_S8x2048x1_S8x2048_d2 : S8x2048x1.ReducesTo [2] S8x2048
  h_S_ : 0 < S_.numel
  bcast_S8x2048_S8x2048x768_0_1 : S8x2048.BroadcastsInDim S8x2048x768 (![0, 1] : Fin 2 → Fin S8x2048x768.rank)
  bcast_S_S8x2048x768 : S_.BroadcastsInDim S8x2048x768 (![] : Fin 0 → Fin S8x2048x768.rank)
  bcast_S2048x768_S1x2048x768_1_2 : S2048x768.BroadcastsInDim S1x2048x768 (![1, 2] : Fin 2 → Fin S1x2048x768.rank)
  bcast_S1x2048x768_S8x2048x768_0_1_2 : S1x2048x768.BroadcastsInDim S8x2048x768 (![0, 1, 2] : Fin 3 → Fin S8x2048x768.rank)
  gather_S50257x768_S8x2048x1_S8x2048x768_2_0_n_n_0_2_1768_wf : GatherDims.WF S50257x768 S8x2048x1 S8x2048x768 [2] [0] [] [0] [] 2 ![1, 768]

variable [Facts₀]

def gather_S50257x768_S8x2048x1_S8x2048x768_2_0_n_n_0_2_1768 : GatherDims S50257x768 S8x2048x1 S8x2048x768 where
  offsetDims := [2]
  collapsedSliceDims := [0]
  operandBatchingDims := []
  startIndicesBatchingDims := []
  startIndexMap := [0]
  indexVectorDim := 2
  sliceSizes := ![1, 768]
  wf := gather_S50257x768_S8x2048x1_S8x2048x768_2_0_n_n_0_2_1768_wf

class Facts : Prop extends Facts₀ where

variable [Facts]
-- ==== Proof.PreRange.lean ====
/-
  The precondition, decoded: every token id is below 50257 as a natural number.

  The precondition is the conjunction of four whole-array tests: both float tables finite, every token `≥ 0` and every
  token `< 50257`, the last two as signed comparisons against a broadcast constant. A whole-array test that came out
  true is true at every element; a 32-bit word that is non-negative and below 50257 as a signed integer is below 50257
  as a natural number. The float tables play no part here, so the fact holds at every float instance.
-/
import proofs.«404623_j9423158247955_2_alg».proof.Pre_finite_inputs
import proofs.«404623_j9423158247955_2_alg».proof.Proof.Gen.Pre_finite_inputs
import Idealize.ShloMosaic.Lib.ReduceAll
import Idealize.ShloMosaic.Lib.ValueIdx

noncomputable section

namespace Cert.PreRange

open Idealize.ShloMosaic Idealize.ShloMosaic.ValueIdx
open Cert.Pre_finite_inputs Cert.Pre_finite_inputs.Gen

/-- The scalar shape has one index. -/
instance : Subsingleton S_.Idx := ⟨fun a b => funext fun d => d.elim0⟩

/-- A word that is non-negative and below `n` as a signed integer is below `n` as a natural number. -/
theorem toNat_lt_of_signed (w : BitVec 32) (n : Nat) (hn : n < 2 ^ 31)
    (h0 : (0#32 : BitVec 32).toInt ≤ w.toInt) (h1 : w.toInt < (BitVec.ofNat 32 n).toInt) : w.toNat < n := by
  have e0 : (0#32 : BitVec 32).toInt = 0 := by decide
  have en : (BitVec.ofNat 32 n).toInt = n := by
    rw [BitVec.toInt_eq_toNat_cond]
    simp only [BitVec.toNat_ofNat]
    have : n % 2 ^ 32 = n := Nat.mod_eq_of_lt (by omega)
    rw [this]
    split <;> omega
  rw [e0] at h0
  rw [en] at h1
  rw [BitVec.toInt_eq_toNat_cond] at h0 h1
  have hw := w.isLt
  split at h0 <;> omega

variable {F : FTy → Type} [FloatOps F]

/-- THE PRECONDITION AT A TOKEN: where the printed precondition is all ones, every token id is below 50257. -/
theorem tokens_lt (tok : IVec S8x2048 32) (We : FVec F S768x50257 .f32) (Wp : FVec F S2048x768 .f32)
    (h : Cert.Pre_finite_inputs.fn (F := F) tok We Wp = fun _ => 1#1) (i : S8x2048.Idx) : (tok i).toNat < 50257 := by
  have e := congrFun h ix0
  dsimp only [Cert.Pre_finite_inputs.fn, Cert.Pre_finite_inputs.fn_part1] at e
  obtain ⟨e1, hlt⟩ := IntOp.andi_eq_one.1 e
  obtain ⟨_, hge⟩ := IntOp.andi_eq_one.1 e1
  have g := Host.reduce_andi_all _ _ _ _ _ hge i
  have l := Host.reduce_andi_all _ _ _ _ _ hlt i
  exact toNat_lt_of_signed (tok i) 50257 (by decide) (IntOp.cmpi_sge.1 g) (IntOp.cmpi_slt.1 l)

end Cert.PreRange

end
-- ==== Proof.OkKernel.lean ====
/-
  The pipeline's side condition on the prefetched table, from the precondition.

  The embedding window's block index at grid point `t` is the table word at `t`, and the table is the token array
  flattened to `[16384]`, so every word of it is a token. The side condition asks that the block `(word, 0, 0)` of
  size `[1, 1, 768]` lie inside the `[50257, 1, 768]` array, which is `word < 50257` as a natural number; its transfer is
  word-exact because the elements are 32 bits wide. The precondition says every token is below 50257.
-/
import proofs.«404623_j9423158247955_2_alg».proof.Defs
import proofs.«404623_j9423158247955_2_alg».proof.Proof.Gen.Kernel.Frame
import proofs.«404623_j9423158247955_2_alg».proof.Proof.PreRange
import Idealize.ShloMosaic.Lib.StableHlo.Run

set_option maxRecDepth 16384

noncomputable section

namespace Cert.Kernel.OkOfPre

open Cert.Kernel Cert.Kernel.Gen
open Idealize.ShloMosaic Idealize.ShloMosaic.TcCoe Idealize.SL.Sem Idealize.ShloMosaic.StableHlo

variable (m : (ℓ : Loc nD τ sig) → Buf (Elt Bits) ℓ)

/-- The table the region reads is the token array, flattened. -/
theorem tbl_eq : tbl m 0 = shapeCast S16384 (m (((0 : Dev nD) : Thread nD τ).loc main_arg0)) shapeCasts_S8x2048_S16384 := by
  unfold tbl
  show V m 0 main_v3 = _
  dsimp only [V, V0]
  simp only [hostOps0, List.flatten_cons, List.flatten_nil, List.append_nil]
  after_results
  rfl

/-- Every word of the table is a token, so below 50257 where the tokens are. -/
theorem tbl_lt (hr : ∀ i, (m (((0 : Dev nD) : Thread nD τ).loc main_arg0) i).toNat < 50257) (x : S16384.Idx) :
    (tbl m 0 x).toNat < 50257 := by
  rw [tbl_eq]
  unfold shapeCast
  exact hr _

/-- The side condition from the range of the tokens. -/
theorem ok_of_range (hr : ∀ i, (m (((0 : Dev nD) : Thread nD τ).loc main_arg0) i).toNat < 50257) : Ok m := by
  intro i
  obtain ⟨w, hw, e⟩ : ∃ w : BitVec 32, w.toNat < 50257 ∧ cc0_transform_0 k0_off1_inb numel1_S1 (tbl m) i = ![w.toNat, 0, 0] :=
    ⟨_, tbl_lt m hr _, rfl⟩
  refine ⟨fun a => ?_, Or.inl rfl⟩
  rw [e]
  fin_cases a <;> simp [S1x1x768, S50257x1x768] <;> omega

/-- THE SIDE CONDITION FROM THE PRECONDITION. -/
theorem ok_of_pre (h : Cert.Pre_Kernel m) : Ok m :=
  ok_of_range m (fun i => Cert.PreRange.tokens_lt _ _ _ (h 0) i)

end Cert.Kernel.OkOfPre

end
-- ==== Proof.OkKernelIdeal.lean ====
/-
  The pipeline's side condition on the prefetched table, from the precondition.

  The embedding window's block index at grid point `t` is the table word at `t`, and the table is the token array
  flattened to `[16384]`, so every word of it is a token. The side condition asks that the block `(word, 0, 0)` of
  size `[1, 1, 768]` lie inside the `[50257, 1, 768]` array, which is `word < 50257` as a natural number; its transfer is
  word-exact because the elements are 32 bits wide. The precondition says every token is below 50257.
-/
import proofs.«404623_j9423158247955_2_alg».proof.Defs
import proofs.«404623_j9423158247955_2_alg».proof.Proof.Gen.KernelIdeal.Frame
import proofs.«404623_j9423158247955_2_alg».proof.Proof.PreRange
import Idealize.ShloMosaic.Lib.StableHlo.Run

set_option maxRecDepth 16384

noncomputable section

namespace Cert.KernelIdeal.OkOfPre

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The table the region reads is the token array, flattened. -/
theorem tbl_eq : tbl m 0 = shapeCast S16384 (m (((0 : Dev nD) : Thread nD τ).loc main_arg0)) shapeCasts_S8x2048_S16384 := by
  unfold tbl
  show V m 0 main_v3 = _
  dsimp only [V, V0]
  simp only [hostOps0, List.flatten_cons, List.flatten_nil, List.append_nil]
  after_results
  rfl

/-- Every word of the table is a token, so below 50257 where the tokens are. -/
theorem tbl_lt (hr : ∀ i, (m (((0 : Dev nD) : Thread nD τ).loc main_arg0) i).toNat < 50257) (x : S16384.Idx) :
    (tbl m 0 x).toNat < 50257 := by
  rw [tbl_eq]
  unfold shapeCast
  exact hr _

/-- The side condition from the range of the tokens. -/
theorem ok_of_range (hr : ∀ i, (m (((0 : Dev nD) : Thread nD τ).loc main_arg0) i).toNat < 50257) : Ok m := by
  intro i
  obtain ⟨w, hw, e⟩ : ∃ w : BitVec 32, w.toNat < 50257 ∧ cc0_transform_0 k0_off1_inb numel1_S1 (tbl m) i = ![w.toNat, 0, 0] :=
    ⟨_, tbl_lt m hr _, rfl⟩
  refine ⟨fun a => ?_, Or.inl rfl⟩
  rw [e]
  fin_cases a <;> simp [S1x1x768, S50257x1x768] <;> omega

/-- THE SIDE CONDITION FROM THE PRECONDITION. -/
theorem ok_of_pre (h : Cert.Pre_KernelIdeal m) : Ok m :=
  ok_of_range m (fun i => Cert.PreRange.tokens_lt _ _ _ (h 0) i)

end Cert.KernelIdeal.OkOfPre

end
-- ==== Proof.Spec.lean ====
/-
  What both programs compute, as one function of the three argument arrays.

  An embedding lookup with a positional term: for batch row `b`, position `s` and feature `d`,

      out[b, s, d] = W_emb[d, tokens[b, s]] + W_pos[s, d]

  over the extended reals. The table `W_emb` is stored feature-major, `[768, 50257]`, so the row of the transposed
  table that a token selects is a column of `W_emb`. The token word is read as a natural number and, so that the
  function is total, clamped to the last column; where every token is below 50257 (`InRange`) the clamp does nothing.
-/
import Idealize.ShloMosaic.PureOps.Ideal
import Idealize.ShloMosaic.Lib.ValueIdx

noncomputable section

namespace Cert.Embed

open Idealize.ShloMosaic Idealize.ShloMosaic.ValueIdx

/-- The token ids: 8 rows of 2048 positions. -/
abbrev STok : Shape := ⟨2, ![8, 2048]⟩
/-- The embedding table, feature-major: 768 features by 50257 vocabulary entries. -/
abbrev SEmb : Shape := ⟨2, ![768, 50257]⟩
/-- The positional table: 2048 positions by 768 features. -/
abbrev SPos : Shape := ⟨2, ![2048, 768]⟩
/-- The result: 8 rows, 2048 positions, 768 features. -/
abbrev SOut : Shape := ⟨3, ![8, 2048, 768]⟩

/-- Every token id, read as a natural number, names a column of the embedding table. (A 32-bit word below 50257 as a
    natural number is also non-negative and below 50257 as a signed integer.) -/
def InRange (tok : IVec STok 32) : Prop := ∀ i : STok.Idx, (tok i).toNat < 50257

/-- The result at `(b, s, d)`: the embedding table's entry for feature `d` of token `tokens[b, s]`, plus the
    positional table's entry for position `s` and feature `d`. -/
def embedAt (tok : IVec STok 32) (We : FVec Ideal SEmb .f32) (Wp : FVec Ideal SPos .f32)
    (b : Fin 8) (s : Fin 2048) (d : Fin 768) : Ideal .f32 :=
  We (ix2 d ⟨min (tok (ix2 b s)).toNat 50256, by omega⟩) + Wp (ix2 s d)

/-- The whole result array. -/
def embed (tok : IVec STok 32) (We : FVec Ideal SEmb .f32) (Wp : FVec Ideal SPos .f32) : FVec Ideal SOut .f32 :=
  fun j => embedAt tok We Wp (j 0) (j 1) (j 2)

/-- The result read at explicit coordinates. -/
theorem embed_apply (tok : IVec STok 32) (We : FVec Ideal SEmb .f32) (Wp : FVec Ideal SPos .f32)
    (b : Fin 8) (s : Fin 2048) (d : Fin 768) : embed tok We Wp (ix3 b s d) = embedAt tok We Wp b s d := rfl

end Cert.Embed

end
-- ==== Proof.IndexMaps.lean ====
/-
  The three windows' block indices at a grid point, in closed form.

  The grid is one axis of 16384 points, one per token position `t = b · 2048 + s`. The output window's block index is
  `(t, 0, 0)`. The positional window's is `(t mod 2048, 0, 0)`: the index map computes a floored remainder by 2048 from a
  truncated one with a correction for negative operands, and for `0 ≤ t` the correction never applies. The embedding
  window's is `(word, 0, 0)`, the word the prefetched table holds at `t`.
-/
import proofs.«404623_j9423158247955_2_alg».proof.Proof.Gen.KernelIdeal
import Idealize.ShloMosaic.Lib.Affine
import Idealize.ShloMosaic.Lib.ValueIdx

noncomputable section

namespace Cert.KernelIdeal.IndexMaps

open Cert.KernelIdeal Cert.KernelIdeal.Gen
open Idealize.ShloMosaic Idealize.ShloMosaic.ValueIdx

/-- The grid has 16384 points. -/
theorem gridN : grid0.N = 16384 := by decide

/-- On a grid of one axis the point's coordinate is the point's number. -/
theorem coords_val (t : Fin grid0.N) : ((grid0.coords t) 0).val = t.val := by
  have hs : grid0.stride 0 = 1 := by decide
  have hb : grid0.bound 0 = 16384 := rfl
  have ht : t.val < 16384 := Nat.lt_of_lt_of_eq t.isLt gridN
  show t.val / grid0.stride 0 % grid0.bound 0 = t.val
  rw [hs, hb]
  omega

/-- The output window's block index at coordinate `i` is `(i, 0, 0)`. -/
theorem transform_2_eq (i : grid0.Coords) : cc0_transform_2 i = ![(i 0).val, 0, 0] := by
  have r_i0 : (i 0).val < 16384 := (i 0).isLt
  have h_arg0 : Affine.IsInt (BitVec.ofNat 32 (i 0).val) (((i 0).val : Int)) := Affine.ofNat _ (by omega)
  have h_c0 : Affine.IsInt 0#32 (0) := Affine.ofNat _ (by omega)
  exact Affine.vec_cons h_arg0 (by omega) <| Affine.vec_cons h_c0 (by omega) <| Affine.vec_cons h_c0 (by omega) <| Affine.vec_nil

/-- The positional window's block index at coordinate `i` is `(i mod 2048, 0, 0)`. -/
theorem transform_1_eq (i : grid0.Coords) : cc0_transform_1 i = ![(i 0).val % 2048, 0, 0] := by
  have r_i0 : (i 0).val < 16384 := (i 0).isLt
  have h_arg0 : Affine.IsInt (BitVec.ofNat 32 (i 0).val) (((i 0).val : Int)) := Affine.ofNat _ (by omega)
  have h_c2048 : Affine.IsInt 2048#32 (2048) := Affine.ofNat _ (by omega)
  have h_c0 : Affine.IsInt 0#32 (0) := Affine.ofNat _ (by omega)
  have h_c1 : Affine.IsInt 1#32 (1) := Affine.ofNat _ (by omega)
  have h_v0 : Affine.Fails _ := Affine.eq_fails h_c2048 h_c0 (by omega)
  have h_v1 : Affine.IsInt _ (2048) := Affine.select_fails h_v0 h_c1 h_c2048 (by omega)
  have h_v2 : Affine.IsInt _ ((((i 0).val : Int) % 2048)) := Affine.remsi h_arg0 h_v1 (by omega)
  have h_v3 : Affine.Term _ := Affine.cmpi_term .ne h_v2 h_c0
  have h_v4 : Affine.Fails _ := Affine.slt_fails h_v2 h_c0 (by omega)
  have h_v5 : Affine.Fails _ := Affine.slt_fails h_v1 h_c0 (by omega)
  have h_v6 : Affine.Fails _ := Affine.xori_ff h_v4 h_v5
  have h_v7 : Affine.Fails _ := Affine.andi_fails_left h_v6 h_v3
  have h_v8 : Affine.IsInt _ ((((i 0).val : Int) % 2048) + 2048) := Affine.addi h_v2 h_v1 (by omega)
  have h_v9 : Affine.IsInt _ ((((i 0).val : Int) % 2048)) := Affine.select_fails h_v7 h_v8 h_v2 (by omega)
  exact Affine.vec_cons h_v9 (by omega) <| Affine.vec_cons h_c0 (by omega) <| Affine.vec_cons h_c0 (by omega) <| Affine.vec_nil

variable {F : FTy → Type} [FloatOps F]

/-- The embedding window's block index at coordinate `i` is `(word, 0, 0)`, the table's word at `i`. -/
theorem transform_0_eq (pf : pre0.Contents (Elt F)) (i : grid0.Coords) :
    cc0_transform_0 k0_off1_inb numel1_S1 pf i = ![(pf 0 (ix1 ⟨(i 0).val, (i 0).isLt⟩)).toNat, 0, 0] := by
  have r_i0 : (i 0).val < 16384 := (i 0).isLt
  have h_arg0 : Affine.IsInt (BitVec.ofNat 32 (i 0).val) (((i 0).val : Int)) := Affine.ofNat _ (by omega)
  have h_v0 : Affine.IsInt (Scalar.indexCast (BitVec.ofNat 32 (i 0).val)) (((i 0).val : Int)) := Affine.indexCast h_arg0
  have hv : (Scalar.indexCast (BitVec.ofNat 32 (i 0).val)).toNat = (i 0).val := by
    have := Affine.toNat_of h_v0 (by omega); omega
  have hidx : (Rect.unit (s := S16384) ![(Scalar.indexCast (BitVec.ofNat 32 (i 0).val)).toNat] S1.size (k0_off1_inb i)).emb
      (Shape.Idx.first (numel1_S1.symm ▸ Nat.one_pos)) = ix1 ⟨(i 0).val, (i 0).isLt⟩ := by
    funext a
    apply Fin.ext
    match a with
    | ⟨0, _⟩ =>
      show (Scalar.indexCast (BitVec.ofNat 32 (i 0).val)).toNat + 1 * (Shape.Idx.first (numel1_S1.symm ▸ Nat.one_pos) (0 : Fin 1)).val = (i 0).val
      have h1 : (Shape.Idx.first (numel1_S1.symm ▸ Nat.one_pos) (0 : Fin 1)).val < 1 :=
        (Shape.Idx.first (numel1_S1.symm ▸ Nat.one_pos) (0 : Fin 1)).isLt
      omega
  show ![(pf 0 ((Rect.unit (s := S16384) ![(Scalar.indexCast (BitVec.ofNat 32 (i 0).val)).toNat] S1.size (k0_off1_inb i)).emb
      (Shape.Idx.first (numel1_S1.symm ▸ Nat.one_pos)))).toNat, (0#32 : BitVec 32).toNat, (0#32 : BitVec 32).toNat] = _
  rw [hidx]
  rfl

end Cert.KernelIdeal.IndexMaps

end
-- ==== Proof.KernelArrays.lean ====
/-
  The pallas_call's operands as the region finds them, read at an index.

  Before the region the program lays its arguments out for row-at-a-time blocks: the embedding table is transposed to
  vocabulary-major and given a unit middle axis, `[50257, 1, 768]`; the positional table is given a unit middle axis,
  `[2048, 1, 768]`; the token array is flattened to `[16384]` and becomes the prefetched table. None of these moves a
  value: row `v`, feature `d` of the first is `W_emb[d, v]`; row `s`, feature `d` of the second is `W_pos[s, d]`; and word
  `t` of the table is `tokens[t / 2048, t mod 2048]`. True at every float instance.
-/
import proofs.«404623_j9423158247955_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Arrays

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F] (m : (ℓ : Loc nD τ sig) → Buf (Elt F) ℓ)

/-- The embedding operand is the table transposed, with a unit middle axis. -/
theorem V_v1 (c : Dev nD) : V m c main_v1
    = shapeCast S50257x1x768 (transpose S50257x768 [1, 0] (m ((c : Thread nD τ).loc main_arg1)) transposes_S768x50257_S50257x768_1_0)
        shapeCasts_S50257x768_S50257x1x768 := by
  dsimp only [V, V0]
  simp only [hostOps0, List.flatten_cons, List.flatten_nil, List.append_nil]
  after_results
  rfl

/-- The positional operand is the positional table with a unit middle axis. -/
theorem V_v2 (c : Dev nD) : V m c main_v2
    = shapeCast S2048x1x768 (m ((c : Thread nD τ).loc main_arg2)) shapeCasts_S2048x768_S2048x1x768 := by
  dsimp only [V, V0]
  simp only [hostOps0, List.flatten_cons, List.flatten_nil, List.append_nil]
  after_results
  rfl

/-- The prefetched table is the token array, flattened. -/
theorem tbl_eq : tbl m 0 = shapeCast S16384 (m (((0 : Dev nD) : Thread nD τ).loc main_arg0)) shapeCasts_S8x2048_S16384 := by
  unfold tbl
  show V m 0 main_v3 = _
  dsimp only [V, V0]
  simp only [hostOps0, List.flatten_cons, List.flatten_nil, List.append_nil]
  after_results
  rfl

/-- Row `v`, feature `d` of the embedding operand is `W_emb[d, v]`. -/
theorem V_v1_apply (c : Dev nD) (v : Fin 50257) (d : Fin 768) :
    V m c main_v1 (ix3 v (0 : Fin 1) d) = m ((c : Thread nD τ).loc main_arg1) (ix2 d v) := by
  rw [V_v1]
  refine (shapeCast_apply _ _ (ix3 v (0 : Fin 1) d) (ix2 v d) ?_).trans
    (transpose_apply _ _ _ (ix2 v d) (ix2 d v) (fun b => by match b with | ⟨0, _⟩ => rfl | ⟨1, _⟩ => rfl))
  rw [Shape.rowMajor_val_two, Shape.rowMajor_val_three]
  show v.val * 768 + d.val = (v.val * 1 + 0) * 768 + d.val
  omega

/-- Row `s`, feature `d` of the positional operand is `W_pos[s, d]`. -/
theorem V_v2_apply (c : Dev nD) (s : Fin 2048) (d : Fin 768) :
    V m c main_v2 (ix3 s (0 : Fin 1) d) = m ((c : Thread nD τ).loc main_arg2) (ix2 s d) := by
  rw [V_v2]
  refine shapeCast_apply _ _ (ix3 s (0 : Fin 1) d) (ix2 s d) ?_
  rw [Shape.rowMajor_val_two, Shape.rowMajor_val_three]
  show s.val * 768 + d.val = (s.val * 1 + 0) * 768 + d.val
  omega

/-- Word `t` of the table is `tokens[t / 2048, t mod 2048]`. -/
theorem tbl_apply (t : Fin 16384) :
    tbl m 0 (ix1 t) = m (((0 : Dev nD) : Thread nD τ).loc main_arg0)
      (ix2 (⟨t.val / 2048, by omega⟩ : Fin 8) (⟨t.val % 2048, by omega⟩ : Fin 2048)) := by
  rw [tbl_eq]
  refine shapeCast_apply _ _ (ix1 t) (ix2 (⟨t.val / 2048, by omega⟩ : Fin 8) (⟨t.val % 2048, by omega⟩ : Fin 2048)) ?_
  rw [Shape.rowMajor_val_two, Shape.rowMajor_val_one]
  show t.val / 2048 * 2048 + t.val % 2048 = t.val
  omega

end Cert.KernelIdeal.Arrays

end
-- ==== Proof.KernelValue.lean ====
/-
  The kernel program's result is the lookup sum.

  At grid point `t` the body adds the two blocks the pipeline staged and stores the sum as the output's block. The
  embedding window's block is row `word` of the transposed table, `word` the prefetched table's entry at `t`; the
  positional window's is row `t mod 2048` of the positional table; the output's is row `t` of a `[16384, 1, 768]` array.
  The table is the token array flattened, so with `t = b · 2048 + s` the word is `tokens[b, s]` and `t mod 2048 = s`: row `t`
  of the output ends at `W_emb[·, tokens[b, s]] + W_pos[s, ·]`. The 16384 rows tile the array, and the reshape after the
  region reads row `b · 2048 + s` as `(b, s)`. A block's row index is below 50257 because it is an index of the array,
  so the specification's clamp is inert here.
-/
import proofs.«404623_j9423158247955_2_alg».proof.Proof.Gen.KernelIdeal.Frame
import proofs.«404623_j9423158247955_2_alg».proof.Proof.Spec
import proofs.«404623_j9423158247955_2_alg».proof.Proof.IndexMaps
import proofs.«404623_j9423158247955_2_alg».proof.Proof.KernelArrays
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen Cert.KernelIdeal.IndexMaps Cert.KernelIdeal.Arrays
open Idealize.ShloMosaic Idealize.ShloMosaic.TcCoe Idealize.SL.Sem Idealize.ShloMosaic.StableHlo
open Idealize.ShloMosaic.ValueIdx Cert.Embed
open Idealize.ShloMosaic.Pipeline (Dat Cfg Window)

theorem hz : (![0, 0, 0] : Fin 3 → Nat) = fun _ => 0 := funext fun a => by fin_cases a <;> rfl

/-! ## What the body leaves in the output's block -/

section Piece
variable {F : FTy → Type} [FloatOps F]

/-- The body's one store covers the block with the sum of the two loaded blocks. -/
theorem out_A (c : Dev nD) (i : grid0.Coords) (arg2 : Memref sig .tc .vmem S1x1x768 .f32) (harg2 : arg2.IsWhole)
    (arg3 : Memref sig .tc .vmem S1x1x768 .f32) (harg3 : arg3.IsWhole) (arg4 : Memref sig .tc .vmem S1x1x768 .f32) (harg4 : arg4.IsWhole)
    (x0 : Vec F S1x1x768 .f32) (x1 : Vec F S1x1x768 .f32) (xt0 : TbBuf0 (F := F) c tbM0_0) :
    out0_A_2 c i arg2 harg2 arg3 harg3 arg4 harg4 x0 x1 xt0 = addf x0 x1 := by
  unfold out0_A_2
  rw [View.read_writes_eq_canon _ _ _ (cover0_A_2 c i arg2 harg2 arg3 harg3 arg4 harg4 x0 x1 xt0)]
  unfold kernelRun0_A
  dsimp only
  rw [View.canon_unit_zero hz]
  unfold k0_pay1
  simp only [View.readAt_eq_ld, harg2.read_unread, harg3.read_unread, View.ld_unit_zero (S := S1x1x768) hz, shapeCast_self]

end Piece

/-! ## The flat result, and the equation at one point -/

/-- The `[16384, 1, 768]` array the region fills: row `t = b · 2048 + s` holds the lookup sum at `(b, s)`. -/
def flat (tok : IVec STok 32) (We : FVec Ideal SEmb .f32) (Wp : FVec Ideal SPos .f32) : S16384x1x768.Idx → Ideal .f32 := fun i =>
  embedAt tok We Wp (⟨(i 0).val / 2048, by have h : (i 0).val < 16384 := (i 0).isLt; omega⟩ : Fin 8)
    (⟨(i 0).val % 2048, Nat.mod_lt _ (by decide)⟩ : Fin 2048) (⟨(i 2).val, (i 2).isLt⟩ : Fin 768)

/-- ONE POINT, ONE FEATURE. Given the two operands read as the tables (`hA1`, `hA2`), an index `e0` of the embedding operand
    whose row is the token at the output row's position and whose feature is the output's, and an index `e1` of the
    positional operand whose row is the output row modulo 2048 and whose feature is the output's: the sum of the operands
    there is the flat result at the output index `e2`. -/
theorem point_eq (tok : IVec STok 32) (We : FVec Ideal SEmb .f32) (Wp : FVec Ideal SPos .f32)
    (A1 : S50257x1x768.Idx → Ideal .f32) (A2 : S2048x1x768.Idx → Ideal .f32)
    (hA1 : ∀ (v : Fin 50257) (d : Fin 768), A1 (ix3 v (0 : Fin 1) d) = We (ix2 d v))
    (hA2 : ∀ (s : Fin 2048) (d : Fin 768), A2 (ix3 s (0 : Fin 1) d) = Wp (ix2 s d))
    (e0 : S50257x1x768.Idx) (e1 : S2048x1x768.Idx) (e2 : S16384x1x768.Idx)
    (h0 : ∀ (b : Fin 8) (s : Fin 2048), b.val = (e2 0).val / 2048 → s.val = (e2 0).val % 2048 → (e0 0).val = (tok (ix2 b s)).toNat)
    (h02 : (e0 2).val = (e2 2).val) (h1 : (e1 0).val = (e2 0).val % 2048) (h12 : (e1 2).val = (e2 2).val) :
    A1 e0 + A2 e1 = flat tok We Wp e2 := by
  have r0 : (e0 0).val < 50257 := (e0 0).isLt
  have he0 : e0 = ix3 (⟨(e0 0).val, (e0 0).isLt⟩ : Fin 50257) (0 : Fin 1) (⟨(e0 2).val, (e0 2).isLt⟩ : Fin 768) := by
    funext a; apply Fin.ext
    match a with
    | ⟨0, _⟩ => rfl
    | ⟨1, _⟩ => show (e0 1).val = 0; have : (e0 1).val < 1 := (e0 1).isLt; omega
    | ⟨2, _⟩ => rfl
  have he1 : e1 = ix3 (⟨(e1 0).val, (e1 0).isLt⟩ : Fin 2048) (0 : Fin 1) (⟨(e1 2).val, (e1 2).isLt⟩ : Fin 768) := by
    funext a; apply Fin.ext
    match a with
    | ⟨0, _⟩ => rfl
    | ⟨1, _⟩ => show (e1 1).val = 0; have : (e1 1).val < 1 := (e1 1).isLt; omega
    | ⟨2, _⟩ => rfl
  have a1 := (congrArg A1 he0).trans (hA1 _ _)
  have a2 := (congrArg A2 he1).trans (hA2 _ _)
  rw [a1, a2]
  unfold flat embedAt
  have hw := h0 (⟨(e2 0).val / 2048, by have h : (e2 0).val < 16384 := (e2 0).isLt; omega⟩ : Fin 8)
    (⟨(e2 0).val % 2048, Nat.mod_lt _ (by decide)⟩ : Fin 2048) rfl rfl
  congr 1
  · refine congrArg We (congrArg₂ ix2 (Fin.ext h02) (Fin.ext ?_))
    show (e0 0).val = min _ 50256
    rw [← hw]; omega
  · exact congrArg Wp (congrArg₂ ix2 (Fin.ext h1) (Fin.ext h12))

/-! ## The windows' blocks, at any admissible contents of the table -/

section Blocks
variable (a : (pcfg0 (F := Ideal)).Adm) (t : Fin (cfg0 a).N) (j : S1x1x768.Idx)

theorem t_lt : t.val < 16384 := Nat.lt_of_lt_of_eq t.isLt gridN

/-- The embedding window's block at `t`: row the table's word at `t`, feature the block's. -/
theorem emb0_row (e : S50257x1x768.Idx) (he : e = (((cfg0 a).win 0).blk t).view.emb j) :
    (e 0).val = (a.1 0 (ix1 (⟨t.val, t_lt a t⟩ : Fin 16384))).toNat := by
  subst he
  show cc0_transform_0 k0_off1_inb numel1_S1 a.1 (grid0.coords t) 0 * 1 + 1 * (j 0).val = _
  rw [transform_0_eq]
  have hj : (j 0).val < 1 := (j 0).isLt
  have hc := coords_val t
  show (a.1 0 (ix1 ⟨((grid0.coords t) 0).val, _⟩)).toNat * 1 + 1 * (j 0).val = _
  have e : (ix1 (⟨((grid0.coords t) 0).val, ((grid0.coords t) 0).isLt⟩ : Fin 16384) : S16384.Idx) = ix1 (⟨t.val, t_lt a t⟩ : Fin 16384) :=
    congrArg ix1 (Fin.ext hc)
  rw [e]; omega
theorem emb0_feat (e : S50257x1x768.Idx) (he : e = (((cfg0 a).win 0).blk t).view.emb j) : (e 2).val = (j 2).val := by
  subst he
  show cc0_transform_0 k0_off1_inb numel1_S1 a.1 (grid0.coords t) 2 * 768 + 1 * (j 2).val = _
  rw [transform_0_eq]
  show 0 * 768 + 1 * (j 2).val = _
  omega

/-- The positional window's block at `t`: row `t mod 2048`, feature the block's. -/
theorem emb1_row (e : S2048x1x768.Idx) (he : e = (((cfg0 a).win 1).blk t).view.emb j) : (e 0).val = t.val % 2048 := by
  subst he
  show cc0_transform_1 (grid0.coords t) 0 * 1 + 1 * (j 0).val = _
  rw [transform_1_eq]
  have hj : (j 0).val < 1 := (j 0).isLt
  have hc := coords_val t
  show ((grid0.coords t) 0).val % 2048 * 1 + 1 * (j 0).val = _
  rw [hc]; omega
theorem emb1_feat (e : S2048x1x768.Idx) (he : e = (((cfg0 a).win 1).blk t).view.emb j) : (e 2).val = (j 2).val := by
  subst he
  show cc0_transform_1 (grid0.coords t) 2 * 768 + 1 * (j 2).val = _
  rw [transform_1_eq]
  show 0 * 768 + 1 * (j 2).val = _
  omega

/-- The output window's block at `t`: row `t`, the unit axis, feature the block's. -/
theorem emb2_row (e : S16384x1x768.Idx) (he : e = (((cfg0 a).win 2).blk t).view.emb j) : (e 0).val = t.val := by
  subst he
  show cc0_transform_2 (grid0.coords t) 0 * 1 + 1 * (j 0).val = _
  rw [transform_2_eq]
  have hj : (j 0).val < 1 := (j 0).isLt
  have hc := coords_val t
  show ((grid0.coords t) 0).val * 1 + 1 * (j 0).val = _
  rw [hc]; omega
theorem emb2_mid (e : S16384x1x768.Idx) (he : e = (((cfg0 a).win 2).blk t).view.emb j) : (e 1).val = 0 := by
  subst he
  show cc0_transform_2 (grid0.coords t) 1 * 1 + 1 * (j 1).val = _
  rw [transform_2_eq]
  have hj : (j 1).val < 1 := (j 1).isLt
  show 0 * 1 + 1 * (j 1).val = _
  omega
theorem emb2_feat (e : S16384x1x768.Idx) (he : e = (((cfg0 a).win 2).blk t).view.emb j) : (e 2).val = (j 2).val := by
  subst he
  show cc0_transform_2 (grid0.coords t) 2 * 768 + 1 * (j 2).val = _
  rw [transform_2_eq]
  show 0 * 768 + 1 * (j 2).val = _
  omega

/-- An index that is the image of a block index lies in the block. -/
theorem mem_of_emb (i : S16384x1x768.Idx) (h : (((cfg0 a).win 2).blk t).view.emb j = i) :
    i ∈ (((cfg0 a).win 2).blk t).view.set := by
  subst h
  exact View.emb_mem_set _ j

end Blocks

/-- Every index of the output array is in the block of the point its row names, and every point writes back. -/
theorem cover (a : (pcfg0 (F := Ideal)).Adm) (i : S16384x1x768.Idx) :
    ∃ t : Fin (cfg0 a).N, ((cfg0 a).win 2).flush t = true ∧ i ∈ (((cfg0 a).win 2).blk t).view.set := by
  have hi0 : (i 0).val < 16384 := (i 0).isLt
  have hi1 : (i 1).val < 1 := (i 1).isLt
  have ht : (i 0).val < (cfg0 a).N := Nat.lt_of_lt_of_eq hi0 gridN.symm
  refine ⟨⟨(i 0).val, ht⟩, flush0_2 a _, ?_⟩
  refine mem_of_emb a ⟨(i 0).val, ht⟩ (ix3 (0 : Fin 1) (0 : Fin 1) (⟨(i 2).val, (i 2).isLt⟩ : Fin 768)) i ?_
  funext x
  apply Fin.ext
  match x with
  | ⟨0, _⟩ => exact emb2_row a ⟨(i 0).val, ht⟩ (ix3 (0 : Fin 1) (0 : Fin 1) (⟨(i 2).val, (i 2).isLt⟩ : Fin 768)) _ rfl
  | ⟨1, _⟩ => exact Eq.trans (emb2_mid a ⟨(i 0).val, ht⟩ (ix3 (0 : Fin 1) (0 : Fin 1) (⟨(i 2).val, (i 2).isLt⟩ : Fin 768)) _ rfl) (by show (0 : Nat) = (i 1).val; omega)
  | ⟨2, _⟩ => exact emb2_feat a ⟨(i 0).val, ht⟩ (ix3 (0 : Fin 1) (0 : Fin 1) (⟨(i 2).val, (i 2).isLt⟩ : Fin 768)) _ rfl

/-! ## The region's output array, and the program's result -/

variable (m : (ℓ : Loc nD τ sig) → Buf (Elt Ideal) ℓ) (ρ : Dev nD → PrngReg)

/-- The two staged operands as the region finds them, at their literal types. -/
abbrev embOperand (c : Dev nD) : S50257x1x768.Idx → Ideal .f32 := V m c main_v1
abbrev posOperand (c : Dev nD) : S2048x1x768.Idx → Ideal .f32 := V m c main_v2

/-- WHAT POINT `t` WRITES BACK is block `t` of the flat result of the three arguments. -/
theorem flushed_eq (hO : Ok m) (c : Dev nD) (t : Fin (cfgM m hO).N) :
    (dats m hO 0 c).flushed 2 t = (((cfgM m hO).win 2).blk t).view.read (Elt Ideal)
      (flat (m ((c : Thread nD τ).loc main_arg0)) (m ((c : Thread nD τ).loc main_arg1)) (m ((c : Thread nD τ).loc main_arg2))) := by
  obtain rfl : c = 0 := Subsingleton.elim _ _
  show ((cfgM m hO).win 2).cut (grid0.coords t) ((dats m hO 0 0).after 2 t) = _
  rw [after0_2]
  unfold outsAt0
  funext j
  refine (congrFun (out_A (F := Ideal) 0 (grid0.coords t) (ms0_0 m hO t) (hs0_0 m hO t) (ms0_1 m hO t) (hs0_1 m hO t)
    (ms0_2 m hO t) (hs0_2 m hO t) (iblk m hO 0 0 t) (iblk m hO 0 1 t) (tbl m 0)) j).trans ?_
  refine point_eq _ _ _ (embOperand m 0) (posOperand m 0) (V_v1_apply m 0) (V_v2_apply m 0)
    ((((cfgM m hO).win 0).blk t).view.emb j) ((((cfgM m hO).win 1).blk t).view.emb j) ((((cfgM m hO).win 2).blk t).view.emb j) ?_ ?_ ?_ ?_
  · intro b s hb hs
    rw [emb0_row (adm m hO) t j _ rfl]
    show (tbl m 0 (ix1 (⟨t.val, t_lt (adm m hO) t⟩ : Fin 16384))).toNat = _
    rw [tbl_apply]
    have e2 := emb2_row (adm m hO) t j _ rfl
    refine congrArg (fun i => (m (((0 : Dev nD) : Thread nD τ).loc main_arg0) i).toNat) (congrArg₂ ix2 (Fin.ext ?_) (Fin.ext ?_))
    · show t.val / 2048 = b.val; rw [hb, e2]
    · show t.val % 2048 = s.val; rw [hs, e2]
  · rw [emb0_feat (adm m hO) t j _ rfl, emb2_feat (adm m hO) t j _ rfl]
  · rw [emb1_row (adm m hO) t j _ rfl, emb2_row (adm m hO) t j _ rfl]
  · rw [emb1_feat (adm m hO) t j _ rfl, emb2_feat (adm m hO) t j _ rfl]

/-- THE REGION'S OUTPUT ARRAY after the run is the flat result. -/
theorem final (hO : Ok m) (c : Dev nD) : (dats m hO 0 c).arrAt 2 (cfgM m hO).N
    = flat (m ((c : Thread nD τ).loc main_arg0)) (m ((c : Thread nD τ).loc main_arg1)) (m ((c : Thread nD τ).loc main_arg2)) :=
  (dats m hO 0 c).arrAt_eq_of_cover 2 _ (fun t _ => flushed_eq m hO c t) (cover (adm m hO))

/-- The flat result, its rows read as `(b, s)`, is the lookup sum. -/
theorem reshape_flat (tok : IVec STok 32) (We : FVec Ideal SEmb .f32) (Wp : FVec Ideal SPos .f32) :
    shapeCast S8x2048x768 (flat tok We Wp) shapeCasts_S16384x1x768_S8x2048x768 = embed tok We Wp := by
  funext j
  obtain ⟨b, s, d, rfl⟩ : ∃ (b : Fin 8) (s : Fin 2048) (d : Fin 768), j = ix3 b s d := ⟨j 0, j 1, j 2, eq_ix3 j⟩
  rw [embed_apply]
  refine (shapeCast_apply _ _ (ix3 b s d) (ix3 (⟨b.val * 2048 + s.val, by omega⟩ : Fin 16384) (0 : Fin 1) d) ?_).trans ?_
  · rw [Shape.rowMajor_val_three, Shape.rowMajor_val_three]
    show ((b.val * 2048 + s.val) * 1 + 0) * 768 + d.val = (b.val * 2048 + s.val) * 768 + d.val
    omega
  · unfold flat
    refine congr (congr (congrArg (embedAt tok We Wp) (Fin.ext ?_)) (Fin.ext ?_)) (Fin.ext rfl)
    · show (b.val * 2048 + s.val) / 2048 = b.val; omega
    · show (b.val * 2048 + s.val) % 2048 = s.val; omega

/-- The result buffer after the reshape that follows the region. -/
theorem tail_eq (hO : Ok m) (c : Dev nD) :
    Pipeline.afterTail pcfgs (fun _ => adm m hO) (dats m hO) 0 (V0 m) [hostOps1] c main_v5
      = embed (m ((c : Thread nD τ).loc main_arg0)) (m ((c : Thread nD τ).loc main_arg1)) (m ((c : Thread nD τ).loc main_arg2)) := by
  rw [← reshape_flat, ← final m hO c]
  unfold Pipeline.afterTail
  show StableHlo.after hostOps1 _ (Proc.devRef .tc main_v5) = _
  after_results
  rw [Pipeline.withArrays_arr spec0 winFacts0.arr_inj c _ _ 2]
  rfl

/-- THE RUN, READ: from any memory whose table meets the pipeline's side condition, the kernel program ends with its
    result at the lookup sum of its three arguments, the arguments unchanged. -/
theorem run (hO : Ok m) : θ_run defs (onTc (τ := τ) (main (F := Ideal))) ⟨m, fun _ => 0, ρ⟩ fun r => ∀ c : Dev nD,
      r.2.mem ((c.tc : Thread nD τ).loc main_v5)
          = embed (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v5 (by decide : main_v5 ∈ Pipeline.restRefs sig spec0)).trans (tail_eq m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c)⟩)
    (run_main m ρ hO)

end Cert.KernelIdeal.KValue

end
-- ==== Proof.RefRun.lean ====
/-
  The reference program's run, read back.

  The reference is a straight line of host operations: the embedding table transposed to vocabulary-major; the lookup
  `take(table, tokens, axis 0)`, printed as a function of its own — a negative token is first moved up by the vocabulary
  size, the moved index is tested against `[0, 50256]`, the table's rows are gathered at the moved index, and a
  position whose index failed the test is overwritten by the fill value —; then the positional table broadcast over the
  batch and added. Written out at its call sites it is one list of 28 operations, and its run ends with the result
  buffer at the operations' composed term of the three arguments, which `refOut` names, the arguments untouched.
-/
import proofs.«404623_j9423158247955_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The embedding table, vocabulary-major. -/
def tableT (We : FVec F S768x50257 .f32) : FVec F S50257x768 .f32 :=
  transpose S50257x768 [1, 0] We transposes_S768x50257_S50257x768_1_0

/-- The lookup index: a negative token moved up by the vocabulary size, any other token itself. -/
def wrapIdx (tok : IVec S8x2048 32) : IVec S8x2048 32 :=
  select (cmpi .slt tok (broadcastInDim S8x2048 ![] bcast_S_S8x2048 (constantI S_ 32 0#32)))
    (addi tok (broadcastInDim S8x2048 ![] bcast_S_S8x2048 (constantI S_ 32 50257#32))) tok

/-- The lookup index as a column of start indices. -/
def startIdx (tok : IVec S8x2048 32) : IVec S8x2048x1 32 :=
  broadcastInDim S8x2048x1 ![0, 1] bcast_S8x2048_S8x2048x1_0_1 (wrapIdx tok)

/-- Per position: the lookup index lies in `[0, 50256]`. -/
def inBounds (tok : IVec S8x2048 32) : IVec S8x2048 1 :=
  Host.reduce IntOp.andi
    (andi (cmpi .sge (startIdx tok) (broadcastInDim S8x2048x1 ![] bcast_S_S8x2048x1 (constantI S_ 32 0#32)))
      (cmpi .sle (startIdx tok) (broadcastInDim S8x2048x1 ![0, 1, 2] bcast_S1x1x1_S8x2048x1_0_1_2
        (broadcastInDim S1x1x1 ![2] bcast_S1_S1x1x1_2 (constantI S1 32 50256#32)))))
    (constantI S_ 1 1#1) reducesTo_S8x2048x1_S8x2048_d2 h_S_

/-- The looked-up rows, with the fill value where the index failed the test. -/
def lookup (tok : IVec S8x2048 32) (We : FVec F S768x50257 .f32) : FVec F S8x2048x768 .f32 :=
  select (broadcastInDim S8x2048x768 ![0, 1] bcast_S8x2048_S8x2048x768_0_1 (inBounds tok))
    (Host.gather gather_S50257x768_S8x2048x1_S8x2048x768_2_0_n_n_0_2_1768 (tableT We) (startIdx tok))
    (broadcastInDim S8x2048x768 ![] bcast_S_S8x2048x768 (constant S_ .f32 0x7FC00000#32))

/-- The reference's result: the looked-up rows plus the positional table broadcast over the batch. -/
def refOut (tok : IVec S8x2048 32) (We : FVec F S768x50257 .f32) (Wp : FVec F S2048x768 .f32) : FVec F S8x2048x768 .f32 :=
  addf (lookup tok We)
    (broadcastInDim S8x2048x768 ![0, 1, 2] bcast_S1x2048x768_S8x2048x768_0_1_2
      (broadcastInDim S1x2048x768 ![1, 2] bcast_S2048x768_S1x2048x768_1_2 Wp))

/-! ## The program as a list of operations -/

/-- @main's operations in order, the lookup function and the select it calls written at their call sites over the
    call's own buffers. -/
abbrev ops : List (HloOp τ sig (Elt F)) :=
  [ unary main_arg1 main_v0 ((transpose S50257x768 [1, 0] · transposes_S768x50257_S50257x768_1_0) : (⟨S768x50257, .f32⟩ : BufTy).Contents (Elt F) → (⟨S50257x768, .f32⟩ : BufTy).Contents (Elt F)),
    TRef.nullary main_call0.c (constantI S_ 32 0#32),
    TRef.unary main_call0.c main_call0.v0 (broadcastInDim S8x2048 ![] bcast_S_S8x2048),
    TRef.binary (.of main_arg0) main_call0.v0 main_call0.v1 (cmpi .slt),
    TRef.nullary main_call0.c_0 (constantI S_ 32 50257#32),
    TRef.unary main_call0.c_0 main_call0.v2 (broadcastInDim S8x2048 ![] bcast_S_S8x2048),
    TRef.binary (.of main_arg0) main_call0.v2 main_call0.v3 addi,
    TRef.ternary main_call0.v1 main_call0.v3 (.of main_arg0) main_call0.call0.v0 select,
    TRef.unary main_call0.call0.v0 main_call0.v5 (broadcastInDim S8x2048x1 ![0, 1] bcast_S8x2048_S8x2048x1_0_1),
    TRef.nullary main_call0.c_1 (constantI S1 32 50256#32),
    TRef.nullary main_call0.c_2 (constantI S_ 32 0#32),
    TRef.unary main_call0.c_2 main_call0.v6 (broadcastInDim S8x2048x1 ![] bcast_S_S8x2048x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S8x2048x1 ![0, 1, 2] bcast_S1x1x1_S8x2048x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8x2048x1_S8x2048_d2 h_S_),
    TRef.binary (.of main_v0) main_call0.v5 main_call0.v13 (fun x i => Host.gather gather_S50257x768_S8x2048x1_S8x2048x768_2_0_n_n_0_2_1768 x i),
    TRef.unary main_call0.v12 main_call0.v14 (broadcastInDim S8x2048x768 ![0, 1] bcast_S8x2048_S8x2048x768_0_1),
    TRef.nullary main_call0.cst (constant S_ .f32 0x7FC00000#32),
    TRef.unary main_call0.cst main_call0.v15 (broadcastInDim S8x2048x768 ![] bcast_S_S8x2048x768),
    TRef.ternary main_call0.v14 main_call0.v13 main_call0.v15 main_call0.v16 select,
    unary main_arg2 main_v2 (broadcastInDim S1x2048x768 ![1, 2] bcast_S2048x768_S1x2048x768_1_2 : (⟨S2048x768, .f32⟩ : BufTy).Contents (Elt F) → (⟨S1x2048x768, .f32⟩ : BufTy).Contents (Elt F)),
    unary main_v2 main_v3 (broadcastInDim S8x2048x768 ![0, 1, 2] bcast_S1x2048x768_S8x2048x768_0_1_2 : (⟨S1x2048x768, .f32⟩ : BufTy).Contents (Elt F) → (⟨S8x2048x768, .f32⟩ : BufTy).Contents (Elt F)),
    binary main_v1 main_v3 main_v4 (addf : (⟨S8x2048x768, .f32⟩ : BufTy).Contents (Elt F) → (⟨S8x2048x768, .f32⟩ : BufTy).Contents (Elt F) → (⟨S8x2048x768, .f32⟩ : BufTy).Contents (Elt F)) ]

set_option maxRecDepth 1024 in
/-- @main is that straight line: the two functions' bodies unfolded at their calls, sequencing reassociated. -/
theorem main_eq (c : Dev nD) : main (F := F) c = seq ops := by
  simp only [main, fn_take.body, fn_where.body, seq, bind_assoc, pure_bind]

set_option maxRecDepth 8192 in
set_option maxHeartbeats 2000000 in
/-- The fold of the operations at the result buffer is the composed term of the three arguments: each operation's
    result read where it is written, the buffers it does not write passed over. -/
theorem out_eq (V : Valuation τ sig (Elt F)) :
    after ops V (main_v4 : DevRef τ sig)
      = refOut (V (main_arg0 : DevRef τ sig)) (V (main_arg1 : DevRef τ sig)) (V (main_arg2 : DevRef τ sig)) := by
  unfold refOut lookup inBounds startIdx wrapIdx tableT
  after_results_simp
  simp only [cast_eq]

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub ..⟩

/-- From any memory with zero counters, every weakly fair execution of the reference terminates, with the result buffer
    at the composed term of the three arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's result is the lookup sum, where every token is in range.

  Read at `(b, s, d)`, the reference's composed term is `lookup + W_pos[s, d]`, the positional table broadcast over the
  batch. The lookup is jax's `take`: the token, moved up by the vocabulary size when negative, is tested against
  `[0, 50256]`; the transposed table's row at the index (clamped into the table) is gathered; and the fill value
  replaces it where the test failed. A token below 50257 as a natural number is non-negative as a signed integer, so it is
  not moved; it passes the test, so nothing is filled; and the clamp leaves it alone. What is gathered is the transposed
  table at row `tokens[b, s]` and column `d`, which is `W_emb[d, tokens[b, s]]`.
-/
import proofs.«404623_j9423158247955_2_alg».proof.Proof.RefRun
import proofs.«404623_j9423158247955_2_alg».proof.Proof.Spec
import Idealize.ShloMosaic.Lib.Pipeline.Value
import Idealize.ShloMosaic.Lib.ValueIdx
import Idealize.ShloMosaic.Lib.Affine
import Idealize.ShloMosaic.PureOps.Reduce

noncomputable section

namespace Cert.ReferenceIdeal.RefValue

open Cert.ReferenceIdeal Cert.ReferenceIdeal.Gen Cert.ReferenceIdeal.RefRun
open Idealize.ShloMosaic Idealize.ShloMosaic.ValueIdx Cert.Embed

/-! ## Words -/

/-- A word below 50257 as a natural number reads the same as a signed integer. -/
theorem toInt_of_lt (w : BitVec 32) (h : w.toNat < 50257) : w.toInt = (w.toNat : Int) := by
  rw [BitVec.toInt_eq_toNat_cond]
  split <;> omega

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_one f hf l

/-! ## The lookup index -/

/-- A token in range is not moved. -/
theorem wrapIdx_apply (tok : IVec S8x2048 32) (i : S8x2048.Idx) (h : (tok i).toNat < 50257) : wrapIdx tok i = tok i := by
  have hneg : IntOp.cmpi .slt (tok i) (0#32) = 0#1 :=
    eq_zero_of_ne_one (fun hc => by
      have hlt := IntOp.cmpi_slt.1 hc
      rw [toInt_of_lt _ h] at hlt
      have e0 : (0#32 : BitVec 32).toInt = 0 := by decide
      omega)
  show Scalar.select (IntOp.cmpi .slt (tok i) (0#32)) _ (tok i) = tok i
  rw [hneg, select_zero]

/-- The column of start indices at `(b, s, 0)` is the lookup index at `(b, s)`. -/
theorem startIdx_apply (tok : IVec S8x2048 32) (b : Fin 8) (s : Fin 2048) (z : Fin 1) :
    startIdx tok (ix3 b s z) = wrapIdx tok (ix2 b s) :=
  broadcastInDim_apply _ _ _ (ix3 b s z) (ix2 b s) (fun a => by match a with | ⟨0, _⟩ => rfl | ⟨1, _⟩ => rfl)

/-- So where the tokens are in range the start index is the token. -/
theorem startIdx_eq (tok : IVec S8x2048 32) (hr : InRange tok) (b : Fin 8) (s : Fin 2048) (z : Fin 1) :
    startIdx tok (ix3 b s z) = tok (ix2 b s) := by
  rw [startIdx_apply, wrapIdx_apply tok _ (hr _)]

/-! ## The bounds test -/

/-- Where the tokens are in range every position passes the bounds test. -/
theorem inBounds_eq_one (tok : IVec S8x2048 32) (hr : InRange tok) (i : S8x2048.Idx) : inBounds tok i = 1#1 := by
  unfold inBounds
  rw [Host.reduce_eq_foldl]
  refine foldl_andi_one _ (fun j => ?_) _
  obtain ⟨b, s, z, rfl⟩ : ∃ (b : Fin 8) (s : Fin 2048) (z : Fin 1), j = ix3 b s z := ⟨j 0, j 1, j 2, eq_ix3 j⟩
  show IntOp.andi (IntOp.cmpi .sge (startIdx tok (ix3 b s z)) (0#32)) (IntOp.cmpi .sle (startIdx tok (ix3 b s z)) (50256#32)) = 1#1
  rw [startIdx_eq tok hr]
  have h := hr (ix2 b s)
  have e0 : (0#32 : BitVec 32).toInt = 0 := by decide
  have e1 : (50256#32 : BitVec 32).toInt = 50256 := by decide
  refine IntOp.andi_eq_one.2 ⟨IntOp.cmpi_sge.2 ?_, IntOp.cmpi_sle.2 ?_⟩
  · rw [toInt_of_lt _ h, e0]; omega
  · rw [toInt_of_lt _ h, e1]; omega

/-! ## The gather -/

/-- The rows of a `[50257, 768]` table gathered at a column of start indices `[8, 2048, 1]`: the result at `(b, s, d)` is
    the table at the start index `idx[b, s, 0]`, read signed and clamped into `[0, 50256]`, and column `d`. -/
theorem gather_apply (x : FVec Ideal S50257x768 .f32) (idx : IVec S8x2048x1 32) (b : Fin 8) (s : Fin 2048) (d : Fin 768) :
    Host.gather gather_S50257x768_S8x2048x1_S8x2048x768_2_0_n_n_0_2_1768 x idx (ix3 b s d)
      = x (ix2 ⟨min (idx (ix3 b s 0)).toInt.toNat 50256, by omega⟩ d) := by
  unfold Host.gather
  congr 1
  funext a
  refine Fin.ext ?_
  match a with
  | ⟨0, _⟩ =>
    show gather_S50257x768_S8x2048x1_S8x2048x768_2_0_n_n_0_2_1768.start (ix3 b s d) idx 0
        + gather_S50257x768_S8x2048x1_S8x2048x768_2_0_n_n_0_2_1768.batchCoord (ix3 b s d) 0
        + gather_S50257x768_S8x2048x1_S8x2048x768_2_0_n_n_0_2_1768.offCoord (ix3 b s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50257x768_S8x2048x1_S8x2048x768_2_0_n_n_0_2_1768.startIndexMap from
      List.mem_singleton.mpr rfl)]
    have hsi : gather_S50257x768_S8x2048x1_S8x2048x768_2_0_n_n_0_2_1768.siIdx (ix3 b s d)
        ⟨List.idxOf (0 : Fin 2) gather_S50257x768_S8x2048x1_S8x2048x768_2_0_n_n_0_2_1768.startIndexMap,
          List.idxOf_lt_length_iff.2 (List.mem_singleton.mpr rfl)⟩ = ix3 b s 0 := by
      funext c; refine Fin.ext ?_
      match c with
      | ⟨0, _⟩ => rfl
      | ⟨1, _⟩ => rfl
      | ⟨2, _⟩ => rfl
    rw [hsi]
    rfl
  | ⟨1, _⟩ =>
    show gather_S50257x768_S8x2048x1_S8x2048x768_2_0_n_n_0_2_1768.start (ix3 b s d) idx 1
        + gather_S50257x768_S8x2048x1_S8x2048x768_2_0_n_n_0_2_1768.batchCoord (ix3 b s d) 1
        + gather_S50257x768_S8x2048x1_S8x2048x768_2_0_n_n_0_2_1768.offCoord (ix3 b s d) 1 = _
    rw [GatherDims.batchCoord_eq_zero _ _ _ List.not_mem_nil]
    unfold GatherDims.start
    rw [dif_neg (show (1 : Fin 2) ∉ gather_S50257x768_S8x2048x1_S8x2048x768_2_0_n_n_0_2_1768.startIndexMap from
      fun h => absurd (congrArg Fin.val (List.mem_singleton.mp h)) Nat.one_ne_zero)]
    simp only [Nat.add_zero, Nat.zero_add]
    rfl

/-! ## The lookup and the sum -/

/-- The transposed table at `(v, d)` is the table at `(d, v)`. -/
theorem tableT_apply (We : FVec Ideal S768x50257 .f32) (v : Fin 50257) (d : Fin 768) :
    tableT We (ix2 v d) = We (ix2 d v) :=
  transpose_apply _ _ _ (ix2 v d) (ix2 d v) (fun c => by match c with | ⟨0, _⟩ => rfl | ⟨1, _⟩ => rfl)

/-- Where the tokens are in range, the lookup at `(b, s, d)` is the table's entry for feature `d` of token
    `tokens[b, s]`. -/
theorem lookup_apply (tok : IVec S8x2048 32) (We : FVec Ideal S768x50257 .f32) (hr : InRange tok)
    (b : Fin 8) (s : Fin 2048) (d : Fin 768) :
    lookup tok We (ix3 b s d) = We (ix2 d ⟨min (tok (ix2 b s)).toNat 50256, by omega⟩) := by
  have hm : broadcastInDim S8x2048x768 ![0, 1] bcast_S8x2048_S8x2048x768_0_1 (inBounds tok) (ix3 b s d) = 1#1 :=
    (broadcastInDim_apply _ _ _ (ix3 b s d) (ix2 b s)
      (fun a => by match a with | ⟨0, _⟩ => rfl | ⟨1, _⟩ => rfl)).trans (inBounds_eq_one tok hr _)
  unfold lookup
  rw [select_apply, hm, select_one, gather_apply, tableT_apply]
  have e : (tok (ix2 b s)).toInt.toNat = (tok (ix2 b s)).toNat := by
    rw [toInt_of_lt _ (hr _)]; exact Int.toNat_natCast _
  refine congrArg We (congrArg (ix2 d) (Fin.ext ?_))
  show min (startIdx tok (ix3 b s 0)).toInt.toNat 50256 = min (tok (ix2 b s)).toNat 50256
  rw [startIdx_eq tok hr, e]

/-- The positional table broadcast over the batch, at `(b, s, d)`, is the table at `(s, d)`. -/
theorem pos_apply (Wp : FVec Ideal S2048x768 .f32) (b : Fin 8) (s : Fin 2048) (d : Fin 768) :
    broadcastInDim S8x2048x768 ![0, 1, 2] bcast_S1x2048x768_S8x2048x768_0_1_2
        (broadcastInDim S1x2048x768 ![1, 2] bcast_S2048x768_S1x2048x768_1_2 Wp) (ix3 b s d) = Wp (ix2 s d) :=
  (broadcastInDim_apply _ _ _ (ix3 b s d) (ix3 (0 : Fin 1) s d)
      (fun a => by match a with | ⟨0, _⟩ => rfl | ⟨1, _⟩ => rfl | ⟨2, _⟩ => rfl)).trans
    (broadcastInDim_apply _ _ _ (ix3 (0 : Fin 1) s d) (ix2 s d)
      (fun a => by match a with | ⟨0, _⟩ => rfl | ⟨1, _⟩ => rfl))

/-- THE REFERENCE IS THE LOOKUP SUM: where every token is in range, the reference's composed term is `embed`. -/
theorem refOut_eq (tok : IVec S8x2048 32) (We : FVec Ideal S768x50257 .f32) (Wp : FVec Ideal S2048x768 .f32)
    (hr : InRange tok) : refOut (F := Ideal) tok We Wp = embed tok We Wp := by
  funext j
  obtain ⟨b, s, d, rfl⟩ : ∃ (b : Fin 8) (s : Fin 2048) (d : Fin 768), j = ix3 b s d := ⟨j 0, j 1, j 2, eq_ix3 j⟩
  rw [embed_apply]
  unfold refOut embedAt
  rw [addf_apply, lookup_apply tok We hr, pos_apply]

end Cert.ReferenceIdeal.RefValue

end
-- ==== Proof.lean ====
/-
  An embedding lookup with a positional term, `out[b, s, :] = W_emb[:, tokens[b, s]] + W_pos[s, :]`, as a Pallas kernel
  against its jnp reference, equal over the extended reals where every token id lies in `[0, 50257)`.

  THE KERNEL runs one grid point per token position `t = b · 2048 + s`. A scalar-prefetched table, the token array
  flattened, gives the embedding window its block index: row `tokens[b, s]` of the table transposed to vocabulary-major.
  The positional window takes row `t mod 2048 = s`, the body adds the two rows, and the output window writes row `t`; a
  reshape reads the rows back as `(b, s)`. THE REFERENCE is `take(W_emb.T, tokens, axis 0) + W_pos`: the take moves a
  negative index up by the vocabulary size, gathers at the index clamped into the table, and fills the positions whose
  index was outside `[0, 50256]`; then the positional table is broadcast over the batch and added.

  Both are the one function `Cert.Embed.embed` of the three arguments. On the kernel's side that is read off the run of
  the pipeline block by block (KernelValue.lean over IndexMaps.lean and KernelArrays.lean); on the reference's side off
  its run as a straight line of host operations (RefRun.lean, RefValue.lean). No law of the extended reals is used
  beyond the sum being taken of the same two entries, so finiteness of the tables plays no part.

  THE RANGE OF THE TOKENS is what the frames need. The embedding window's block must lie inside its array at every grid
  point, which is `tokens[b, s] < 50257` as a natural number; the precondition states `0 ≤ tokens < 50257` and
  PreRange.lean reads it back (OkKernel.lean and OkKernelIdeal.lean give the pipeline's side condition from it, at the
  word level and at the exact instance). The same range is where the reference's take is a plain lookup: nothing is
  moved, nothing is filled, the clamp is inert. The idealization rewrote no operation, so it is the kernel's own text
  read at the exact instance.
-/
import proofs.«404623_j9423158247955_2_alg».proof.Defs
import proofs.«404623_j9423158247955_2_alg».proof.Proof.Gen.Kernel
import proofs.«404623_j9423158247955_2_alg».proof.Proof.Gen.Kernel.Skeleton
import proofs.«404623_j9423158247955_2_alg».proof.Proof.Gen.Kernel.Launch
import proofs.«404623_j9423158247955_2_alg».proof.Proof.Gen.Kernel.Points
import proofs.«404623_j9423158247955_2_alg».proof.Proof.Gen.Kernel.Frame
import proofs.«404623_j9423158247955_2_alg».proof.Proof.Gen.KernelIdeal
import proofs.«404623_j9423158247955_2_alg».proof.Proof.Gen.KernelIdeal.Skeleton
import proofs.«404623_j9423158247955_2_alg».proof.Proof.Gen.KernelIdeal.Launch
import proofs.«404623_j9423158247955_2_alg».proof.Proof.Gen.KernelIdeal.Points
import proofs.«404623_j9423158247955_2_alg».proof.Proof.Gen.KernelIdeal.Frame
import proofs.«404623_j9423158247955_2_alg».proof.Proof.Gen.ReferenceIdeal
import proofs.«404623_j9423158247955_2_alg».proof.Proof.Gen.Pre_finite_inputs
import proofs.«404623_j9423158247955_2_alg».proof.Proof.OkKernel
import proofs.«404623_j9423158247955_2_alg».proof.Proof.OkKernelIdeal
import proofs.«404623_j9423158247955_2_alg».proof.Proof.KernelValue
import proofs.«404623_j9423158247955_2_alg».proof.Proof.RefValue
import Idealize.ShloMosaic.Adequacy
import Idealize.ShloMosaic.Init

noncomputable section

namespace Cert.Proof

open Idealize.ShloMosaic Idealize.SL.Sem

/-- The word-level kernel runs and keeps its arguments: the pipeline's frame, its side condition from the tokens' range. -/
theorem frame_k : Cert.frame_Kernel := fun m ρ h => Cert.Kernel.Gen.frame m ρ (Cert.Kernel.OkOfPre.ok_of_pre m h)

/-- So does the kernel read at the exact instance. -/
theorem frame_ki : Cert.frame_KernelIdeal := fun m ρ h => Cert.KernelIdeal.Gen.frame m ρ (Cert.KernelIdeal.OkOfPre.ok_of_pre m h)

/-- The reference is a straight line of host operations: it runs, and writes none of its arguments. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end at the lookup sum of arguments that agree. -/
theorem algebraic : Cert.algebraic_KernelIdeal_ReferenceIdeal := by
  intro m ρ m' ρ' hpre hagree
  refine ⟨_, Cert.KernelIdeal.KValue.run m ρ (Cert.KernelIdeal.OkOfPre.ok_of_pre m hpre), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.ReferenceIdeal.RefValue.refOut_eq _ _ _ (fun i => Cert.PreRange.tokens_lt _ _ _ (hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
